-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S80x10000 : Shape := ⟨2, ![80, 10000]⟩
abbrev S400x128 : Shape := ⟨2, ![400, 128]⟩
abbrev S80x128 : Shape := ⟨2, ![80, 128]⟩

abbrev nBuf : Space → Nat
  | .hbm => 4
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S80x10000, .f32⟩
  | .local _ .vmem, ⟨11, _⟩ => ⟨S80x10000, .f32⟩
  | .local _ .vmem, ⟨12, _⟩ => ⟨S400x128, .f32⟩
  | .local _ .vmem, ⟨13, _⟩ => ⟨S400x128, .f32⟩
  | .local _ .vmem, ⟨14, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.muli arg0 c5_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli arg0 c5_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c5_i32 : BitVec 32 := 5#32
  let v0 : BitVec 32 := Scalar.muli arg0 c5_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S80x10000_S80x10000_0_0 : ∀ a, (![0, 0] : Fin 2 → Nat) a + S80x10000.size a ≤ S80x10000.size a
  h_S80x10000 : 0 < S80x10000.numel
  inb_S400x128_S80x128_0_0 : ∀ a, (![0, 0] : Fin 2 → Nat) a + S80x128.size a ≤ S400x128.size a
  h_S80x128 : 0 < S80x128.numel
  inb_S400x128_S80x128_80_0 : ∀ a, (![80, 0] : Fin 2 → Nat) a + S80x128.size a ≤ S400x128.size a
  inb_S400x128_S80x128_160_0 : ∀ a, (![160, 0] : Fin 2 → Nat) a + S80x128.size a ≤ S400x128.size a
  inb_S400x128_S80x128_240_0 : ∀ a, (![240, 0] : Fin 2 → Nat) a + S80x128.size a ≤ S400x128.size a
  inb_S400x128_S80x128_320_0 : ∀ a, (![320, 0] : Fin 2 → Nat) a + S80x128.size a ≤ S400x128.size a
  dot_S10000x128_S128x128_S10000x128_1_0_0_1_n_n_wf : DotDims.WF S10000x128 S128x128 S10000x128 [1] [0] [0] [1] [] []
  dot_S80x10000_S10000x128_S80x128_1_0_0_1_n_n_wf : DotDims.WF S80x10000 S10000x128 S80x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x10000.size a ≤ S10000x10000.size a
  hwx0_5 : ∀ i : grid0.Coords, EltTy.bits .f32 = 32 ∨ (Rect.block (s := S10000x10000) S80x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x10000.size a ≤ S10000x10000.size a
  hwx0_6 : ∀ i : grid0.Coords, EltTy.bits .f32 = 32 ∨ (Rect.block (s := S10000x10000) S80x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S80x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S80x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
import proofs.«170291_g21157008900740_cont_8to1_106_8_alg».proof.Proof.Gen.Kernel.Launch
import proofs.«170291_g21157008900740_cont_8to1_106_8_alg».proof.Proof.Gen.Kernel.Skeleton
import proofs.«170291_g21157008900740_cont_8to1_106_8_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body at one grid point

The body does two things. At the FIRST grid point only, it multiplies the node features by the weight matrix and keeps
the product (the "support", rounded to bf16) in a scratch buffer that lives across grid points. At EVERY point it takes
the five 80-row slabs of the adjacency matrix that the point was handed, multiplies each by the support, and writes the
five 80×128 products one under the other into the point's 400×128 output block. -/

/-- The body's one branch: "this is the first grid point". -/
abbrev isFirst (i : grid0.Coords) : Prop :=
  (Scalar.cmpi .ne (Scalar.extui (Scalar.cmpi .eq (BitVec.ofNat 32 (i 0).val) 0#32)) 0#32) = 1#1

/-- It is taken at point 0 and at no other point of the 25. -/
theorem isFirst_iff : ∀ t : Fin cfg0.N, isFirst (grid0.coords t) ↔ t.val = 0 :=
  (by decide +kernel : ∀ t : Fin grid0.N, isFirst (grid0.coords t) ↔ t.val = 0)

theorem zero_off : (![0, 0] : Fin 2 → ℕ) = fun _ => 0 := by
  funext a; match a with | ⟨0, _⟩ => rfl | ⟨1, _⟩ => rfl

/-- The support the first point leaves in the scratch buffer: features times weights. -/
abbrev supportOf (x0 : Vec F S10000x128 .f32) (x1 : Vec F S128x128 .f32) : Vec F S10000x128 .bf16 := k0_pay2 x0 x1

/-- The five row slabs a point stores into its output block, last store first: slab `k` (rows `80 k … 80 k + 79`)
    is adjacency slab `k` times the support. -/
def outPieces (a0 a1 a2 a3 a4 : Vec F S80x10000 .f32) (s : Vec F S10000x128 .bf16) : List (View.Piece (Elt F) S400x128 .f32) :=
  [⟨Rect.unit ![320, 0] S80x128.size inb_S400x128_S80x128_320_0, k0_pay1 a4 s⟩,
   ⟨Rect.unit ![240, 0] S80x128.size inb_S400x128_S80x128_240_0, k0_pay6 a3 s⟩,
   ⟨Rect.unit ![160, 0] S80x128.size inb_S400x128_S80x128_160_0, k0_pay5 a2 s⟩,
   ⟨Rect.unit ![80, 0] S80x128.size inb_S400x128_S80x128_80_0, k0_pay4 a1 s⟩,
   ⟨Rect.unit ![0, 0] S80x128.size inb_S400x128_S80x128_0_0, k0_pay3 a0 s⟩]

/-- The five slabs tile the 400-row block. -/
theorem outPieces_cover (a0 a1 a2 a3 a4 : Vec F S80x10000 .f32) (s : Vec F S10000x128 .bf16) (y : S400x128.Idx) :
    ∃ pc ∈ outPieces a0 a1 a2 a3 a4 s, y ∈ pc.1.set :=
  View.cover_of_tiledL (outPieces a0 a1 a2 a3 a4 s) S80x128.size (by sl_kernel_rfl) y

/-- The output block a point leaves: the five slabs read as one 400×128 array. -/
def outBlock (a0 a1 a2 a3 a4 : Vec F S80x10000 .f32) (s : Vec F S10000x128 .bf16) : Vec F S400x128 .f32 :=
  View.canon (outPieces a0 a1 a2 a3 a4 s)

set_option maxHeartbeats 1000000 in
/-- A LATER point (not the first): the scratch holds a support `s`; the body reads the five adjacency slabs and `s`,
    leaves every input and the scratch as they were, and the output block at the five products. -/
theorem run_later (c : Dev nD) (i : grid0.Coords) (hc : ¬ isFirst i)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .bf16) (harg9 : arg9.IsWhole)
    (x0 : Vec F S10000x128 .f32) (x1 : Vec F S128x128 .f32) (a0 a1 a2 a3 a4 : Vec F S80x10000 .f32) (s : Vec F S10000x128 .bf16)
    (E : Set ℕ) (K : PUnit → sProp 𝕄) :
    iprop(owns (c : Thread nD τ) arg1 fullShare x0 ∗ owns (c : Thread nD τ) arg2 fullShare x1
        ∗ owns (c : Thread nD τ) arg3 fullShare a0 ∗ owns (c : Thread nD τ) arg4 fullShare a1 ∗ owns (c : Thread nD τ) arg5 fullShare a2
        ∗ owns (c : Thread nD τ) arg6 fullShare a3 ∗ owns (c : Thread nD τ) arg7 fullShare a4
        ∗ (∃ d, owns (c : Thread nD τ) arg8 fullShare d) ∗ owns (c : Thread nD τ) arg9 fullShare s
        ∗ (iprop(owns (c : Thread nD τ) arg1 fullShare x0 ∗ owns (c : Thread nD τ) arg2 fullShare x1
            ∗ owns (c : Thread nD τ) arg3 fullShare a0 ∗ owns (c : Thread nD τ) arg4 fullShare a1 ∗ owns (c : Thread nD τ) arg5 fullShare a2
            ∗ owns (c : Thread nD τ) arg6 fullShare a3 ∗ owns (c : Thread nD τ) arg7 fullShare a4
            ∗ owns (c : Thread nD τ) arg8 fullShare (outBlock a0 a1 a2 a3 a4 s) ∗ owns (c : Thread nD τ) arg9 fullShare s) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1
  obtain rfl := harg3.eq_unread hf2; obtain rfl := harg4.eq_unread hf3; obtain rfl := harg5.eq_unread hf4
  obtain rfl := harg6.eq_unread hf5; obtain rfl := harg7.eq_unread hf6; obtain rfl := harg9.eq_unread hf8
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_eq_canon _ _ _ ?_).trans ?_
    · exact View.cover_of_tiledL _ S80x128.size (by sl_kernel_rfl)
    · unfold outBlock outPieces
      simp only [View.readAt_eq_ld, Memref.IsWhole.read_unread, View.ld_unit_zero (S := S80x10000) zero_off, View.ld_unit_zero (S := S10000x128) zero_off, View.ld_unit_zero (S := S128x128) zero_off]
  · iexists _; isplitr; · ipureintro; exact hf8
    iexact H8

set_option maxHeartbeats 1000000 in
/-- The FIRST point: the scratch holds anything; the body reads features and weights, fills the scratch with their
    product, then proceeds as at a later point with that support. -/
theorem run_first (c : Dev nD) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .bf16) (harg9 : arg9.IsWhole)
    (x0 : Vec F S10000x128 .f32) (x1 : Vec F S128x128 .f32) (a0 a1 a2 a3 a4 : Vec F S80x10000 .f32)
    (E : Set ℕ) (K : PUnit → sProp 𝕄) :
    iprop(owns (c : Thread nD τ) arg1 fullShare x0 ∗ owns (c : Thread nD τ) arg2 fullShare x1
        ∗ owns (c : Thread nD τ) arg3 fullShare a0 ∗ owns (c : Thread nD τ) arg4 fullShare a1 ∗ owns (c : Thread nD τ) arg5 fullShare a2
        ∗ owns (c : Thread nD τ) arg6 fullShare a3 ∗ owns (c : Thread nD τ) arg7 fullShare a4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare a0 ∗ owns (c : Thread nD τ) arg4 fullShare a1 ∗ owns (c : Thread nD τ) arg5 fullShare a2
            ∗ owns (c : Thread nD τ) arg6 fullShare a3 ∗ owns (c : Thread nD τ) arg7 fullShare a4
            ∗ owns (c : Thread nD τ) arg8 fullShare (outBlock a0 a1 a2 a3 a4 (supportOf x0 x1)) ∗ owns (c : Thread nD τ) arg9 fullShare (supportOf x0 x1)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1
  obtain rfl := harg3.eq_unread hf2; obtain rfl := harg4.eq_unread hf3; obtain rfl := harg5.eq_unread hf4
  obtain rfl := harg6.eq_unread hf5; obtain rfl := harg7.eq_unread hf6
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_eq_canon _ _ _ ?_).trans ?_
    · exact View.cover_of_tiledL _ S80x128.size (by sl_kernel_rfl)
    · sl_unfold_words
      unfold outBlock outPieces
      simp only [View.readAt_eq_ld, Memref.IsWhole.read_unread, View.ld_unit_zero (S := S80x10000) zero_off, View.ld_unit_zero (S := S10000x128) zero_off, View.ld_unit_zero (S := S128x128) zero_off, View.readCov_unit_zero (S := S10000x128) _ zero_off]
  · iexists _; isplitr
    swap; · iexact H8
    ipureintro
    sl_unfold_words
    refine (View.read_writes_eq_canon _ _ _ (fun y => ⟨_, List.mem_singleton_self _, View.mem_set_unit_zero zero_off inb_S10000x128_S10000x128_0_0 y⟩)).trans ?_
    rw [View.canon_unit_zero zero_off]
    simp only [View.readAt_eq_ld, Memref.IsWhole.read_unread, View.ld_unit_zero (S := S80x10000) zero_off, View.ld_unit_zero (S := S10000x128) zero_off, View.ld_unit_zero (S := S128x128) zero_off]

end Cert.Kernel.Hand

end
-- ==== Proof.DataBits.lean ====
import proofs.«170291_g21157008900740_cont_8to1_106_8_alg».proof.Proof.Gen.Kernel.Launch
import proofs.«170291_g21157008900740_cont_8to1_106_8_alg».proof.Proof.Gen.Kernel.Skeleton
import proofs.«170291_g21157008900740_cont_8to1_106_8_alg».proof.Proof.Gen.Kernel.Points
import Idealize.ShloMosaic.Lib.Pipeline.FrameBody
import Idealize.ShloMosaic.Lib.Pipeline.Value
import proofs.«170291_g21157008900740_cont_8to1_106_8_alg».proof.Proof.BodyBits
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The proof data of the one pallas_call

The grid has 25 points. Point `t` is handed: the whole feature array and the whole weight array (windows 0 and 1,
fetched once), five consecutive 80-row slabs of the adjacency matrix (windows 2 to 6: slab `5 t + k` for window
`2 + k`; all five windows read the SAME array), and the 400-row block `t` of the result (window 7). Between points the
scratch buffer carries the support computed at point 0. -/

variable (m : (ℓ : Loc nD τ sig) → Buf (Elt F) ℓ) (ρ : Dev nD → PrngReg)

/-- The arrays as the region finds them: @main has no operation before the call, so these are the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, Nat.lt_of_lt_of_eq (by decide : 0 < 25) N_0.symm⟩

/-- The support: what the first point leaves in the scratch buffer, features times weights. -/
def supp (c : Dev nD) : Vec F S10000x128 .bf16 := supportOf (iblk m c 0 t0) (iblk m c 1 t0)

/-- The scratch buffer, as a memref. -/
abbrev scM : Memref sig .tc .vmem S10000x128 .bf16 := Memref.whole cc0_scratch0

/-- Each window's current staging memref at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S80x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S80x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)

/-- The invariant between points: before the first point the scratch holds anything; after any point it holds the support. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_zero (c : Dev nD) : PhiS m c 0 = iprop(∃ d, owns (c : Thread nD τ) scM fullShare d) := by
  unfold PhiS; rw [scopedRest0_eq]; simp only [scM, owns_whole]; try rfl

theorem PhiS_pos (c : Dev nD) (n : ℕ) (hn : n ≠ 0) : PhiS m c n = owns (c : Thread nD τ) scM fullShare (supp m c) := by
  cases n with
  | zero => exact absurd rfl hn
  | succ n => rfl

/-- The proof data: every input window's buffer is left as found (its block); the result window's buffer is left at
    the five products of the point's adjacency slabs with the support. The five adjacency windows share the
    adjacency array: each holds a fifth part of it (quarters of the share, one of them halved), which suffices to read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 2 t) (iblk m c 3 t) (iblk m c 4 t) (iblk m c 5 t) (iblk m c 6 t) (supp m c)
  Φ t := PhiS m c t.val
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right.left
    | ⟨6, _⟩ => fullShare.right.right.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = outBlock (iblk m c 2 t) (iblk m c 3 t) (iblk m c 4 t) (iblk m c 5 t) (iblk m c 6 t) (supp m c) := by
  dsimp only [dats]

/-- Each input window's current buffer holds its block at every point, fetched there or not: the body leaves it in place,
    and a window not fetched again has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

end Cert.Kernel.Hand

end
-- ==== Proof.ObligBits.lean ====
import proofs.«170291_g21157008900740_cont_8to1_106_8_alg».proof.Proof.Gen.Kernel.Launch
import proofs.«170291_g21157008900740_cont_8to1_106_8_alg».proof.Proof.Gen.Kernel.Skeleton
import proofs.«170291_g21157008900740_cont_8to1_106_8_alg».proof.Proof.Gen.Kernel.Points
import Idealize.ShloMosaic.Lib.Pipeline.FrameBody
import Idealize.ShloMosaic.Lib.Pipeline.Value
import proofs.«170291_g21157008900740_cont_8to1_106_8_alg».proof.Proof.DataBits
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body obligation

At every grid point the body, handed the invariant and each window's current buffer at what it then holds, runs to
the invariant of the next point and each buffer at what the proof data say it leaves. Two cases: the first point
(scratch at anything, filled with the support) and every later point (scratch at the support, only read). -/

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is ever idle: each buffer is left at the proof data's `after`. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (supp m c) := rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [leaves0, leaves1, leaves2, leaves3, leaves4, leaves5, leaves6, leaves7,
    after0, after1, after2, after3, after4, after5, after6, after7, Phi_succ, Phi_castSucc]
  by_cases hz : t.val = 0
  · obtain rfl : t = t0 := Fin.ext hz
    rw [show PhiS m c (t0 : Fin cfg0.N).val = PhiS m c 0 from rfl, PhiS_zero]
    unfold supp
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t0) ((isFirst_iff t0).mpr rfl) _ _ _ _ _ _ _ _ _ _ _ _ _ _ _ _ _ _
      (iblk m c 0 t0) (iblk m c 1 t0) (iblk m c 2 t0) (iblk m c 3 t0) (iblk m c 4 t0) (iblk m c 5 t0) (iblk m c 6 t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c t.val hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) (fun h => hz ((isFirst_iff t).mp h)) _ _ _ _ _ _ _ _ _ _ _ _ _ _ _ _ _ _
      (iblk m c 0 t) (iblk m c 1 t) (iblk m c 2 t) (iblk m c 3 t) (iblk m c 4 t) (iblk m c 5 t) (iblk m c 6 t) (supp m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.SharesBits.lean ====
import proofs.«170291_g21157008900740_cont_8to1_106_8_alg».proof.Proof.DataBits
import Idealize.ShloMosaic.Lib.Pipeline.Launch
import Idealize.ShloMosaic.Lib.Pipeline.Kit
import Idealize.ShloMosaic.Rules.PointsTo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays at entry

The pipeline's windows name four distinct arrays: the features (window 0), the weights (window 1), the adjacency
matrix (windows 2 to 6, all five) and the result (window 7). The launch hands each whole at the full share. The
features, the weights and the result go to their one window whole. The adjacency matrix's full share is cut in two,
each half in two again, and the last quarter once more: five parts, one for each window that reads it. -/

/-- The share each window holds its array at. -/
theorem share0 (c : Dev nD) : (dats m 0 c).share 0 = fullShare := rfl
theorem share1 (c : Dev nD) : (dats m 0 c).share 1 = fullShare := rfl
theorem share2 (c : Dev nD) : (dats m 0 c).share 2 = fullShare.left.left := rfl
theorem share3 (c : Dev nD) : (dats m 0 c).share 3 = fullShare.left.right := rfl
theorem share4 (c : Dev nD) : (dats m 0 c).share 4 = fullShare.right.left := rfl
theorem share5 (c : Dev nD) : (dats m 0 c).share 5 = fullShare.right.right.left := rfl
theorem share6 (c : Dev nD) : (dats m 0 c).share 6 = fullShare.right.right.right := rfl
theorem share7 (c : Dev nD) : (dats m 0 c).share 7 = fullShare := rfl

/-- The buffers behind the windows' arrays, each whole at the full share at the entry contents, make the proof data's
    arrays at entry: three arrays go whole to their window, the adjacency matrix is split five ways. -/
theorem hsplit (c : Dev nD) :
    Pipeline.arrBufs (Ix := Unit) (Name := ℕ) (U := UR sig nD τ) (Lvl := ℕ) spec0 c (V m c) ⊢ (dats m 0 c).arrays ((dats m 0 c).arrAt · 0) := by
  unfold Pipeline.arrBufs Dat.arrays
  rw [bigSep_eq_bigSepL_of_eq [main_arg0, main_arg2, main_arg1, main_v0] (by decide) (by decide), bigSep_W0]
  simp only [bigSepL_cons_cons, bigSepL_singleton, View.set_whole]
  rw [share0, share1, share2, share3, share4, share5, share6, share7]
  show iprop(_ ∗ _ ∗ _ ∗ _) ⊢ _
  iintro ⟨H0, H2, H1, Hv⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  ihave Hrr := (pointsTo_share (PosShare.mem_left_op_right fullShare.right.right)).1 $$ Hrr
  icases Hrr with ⟨Hrrl, Hrrr⟩
  isplitl [H0]; · iexact H0
  isplitl [H2]; · iexact H2
  isplitl [Hll]; · iexact Hll
  isplitl [Hlr]; · iexact Hlr
  isplitl [Hrl]; · iexact Hrl
  isplitl [Hrrl]; · iexact Hrrl
  isplitl [Hrrr]; · iexact Hrrr
  iexact Hv

end Cert.Kernel.Hand

end
-- ==== Proof.LaunchBits.lean ====
import proofs.«170291_g21157008900740_cont_8to1_106_8_alg».proof.Proof.Gen.Kernel.Launch
import proofs.«170291_g21157008900740_cont_8to1_106_8_alg».proof.Proof.Gen.Kernel.Skeleton
import proofs.«170291_g21157008900740_cont_8to1_106_8_alg».proof.Proof.Gen.Kernel.Points
import Idealize.ShloMosaic.Lib.Pipeline.FrameBody
import Idealize.ShloMosaic.Lib.Pipeline.Value
import proofs.«170291_g21157008900740_cont_8to1_106_8_alg».proof.Proof.ObligBits
import proofs.«170291_g21157008900740_cont_8to1_106_8_alg».proof.Proof.SharesBits
import Idealize.ShloMosaic.Lib.Pipeline.Launch
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The launch

@main is the one pallas_call. The launch deals the TensorCore its buffers; the four argument and result arrays go to
the pipeline — the adjacency array in five read shares, one per window on it —, the scratch buffer into the
invariant, and the run of the 25 points ends with every window's array at what the proof data compute: the
arguments as they were, the result overwritten block by block. -/

open Idealize.ShloMosaic.Pipeline (cells launchToks)

variable (m : (ℓ : Loc nD τ sig) → Buf (Elt F) ℓ) (ρ : Dev nD → PrngReg)

theorem main_eq (c : Dev nD) : main (F := F) c = (.op (.customCall (Pipeline.entry 0) ()) fun _ => .ret ⟨⟩) := rfl

/-- The invariant after the last point gives the scratch buffer back, its contents forgotten. -/
theorem Phi_last (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by rw [show cfg0.N = 25 from N_0]; decide),
    show Pipeline.scopedRest (Ix := Unit) (Name := ℕ) (U := UR sig nD τ) (Lvl := ℕ) (Val := Elt F) spec0 c = PhiS m c 0 from rfl, PhiS_zero]
  iintro H
  isplitr; · iempintro
  iexists _; iexact H

set_option backward.isDefEq.respectTransparency.types false in
/-- From any memory with zero counters every weakly fair execution of @main terminates, and every window's array ends
    at what the proof data compute for it after the last point. -/
theorem run_main  :
    θ_run defs (onTc (τ := τ) (main (F := F))) (s₀ m ρ)
      (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (cells cfgs cellOf_inj) (launchToks cfgs cellOf_inj)) (hu₀ := .rfl)
    (V := V m) (hmain := Pipeline.hmain_region cfgs 0 defs₀ Variants.none m main (main_eq))
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => Phi_last m c)
    (QY := fun _ _ => True)
    (hY := fun c s' => by
      iintro ⟨-, -, HSI⟩
      imodintro
      isplitr; · ipureintro; trivial
      iexact HSI)
    (hQ := fun s h c w => (h c).1 w)

/-- The same run read at @main's own arrays: the result array at what the proof data compute, each argument unchanged
    (an input window's array is never written). -/
theorem run_args  :
    θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 7,
      (h c 0).trans (((dats m 0 c).arrAt_in 0 rfl _).trans (A_eq m c 0)),
      (h c 2).trans (((dats m 0 c).arrAt_in 2 rfl _).trans (A_eq m c 2)),
      (h c 1).trans (((dats m 0 c).arrAt_in 1 rfl _).trans (A_eq m c 1))⟩) (run_main m ρ)

end Cert.Kernel.Hand

end
-- ==== Proof.Body.lean ====
import proofs.«170291_g21157008900740_cont_8to1_106_8_alg».proof.Proof.Gen.KernelIdeal.Launch
import proofs.«170291_g21157008900740_cont_8to1_106_8_alg».proof.Proof.Gen.KernelIdeal.Skeleton
import proofs.«170291_g21157008900740_cont_8to1_106_8_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body at one grid point

The body does two things. At the FIRST grid point only, it multiplies the node features by the weight matrix and keeps
the product (the "support", rounded to bf16) in a scratch buffer that lives across grid points. At EVERY point it takes
the five 80-row slabs of the adjacency matrix that the point was handed, multiplies each by the support, and writes the
five 80×128 products one under the other into the point's 400×128 output block. -/

/-- The body's one branch: "this is the first grid point". -/
abbrev isFirst (i : grid0.Coords) : Prop :=
  (Scalar.cmpi .ne (Scalar.extui (Scalar.cmpi .eq (BitVec.ofNat 32 (i 0).val) 0#32)) 0#32) = 1#1

/-- It is taken at point 0 and at no other point of the 25. -/
theorem isFirst_iff : ∀ t : Fin cfg0.N, isFirst (grid0.coords t) ↔ t.val = 0 :=
  (by decide +kernel : ∀ t : Fin grid0.N, isFirst (grid0.coords t) ↔ t.val = 0)

theorem zero_off : (![0, 0] : Fin 2 → ℕ) = fun _ => 0 := by
  funext a; match a with | ⟨0, _⟩ => rfl | ⟨1, _⟩ => rfl

/-- The support the first point leaves in the scratch buffer: features times weights. -/
abbrev supportOf (x0 : Vec F S10000x128 .f32) (x1 : Vec F S128x128 .f32) : Vec F S10000x128 .bf16 := k0_pay2 x0 x1

/-- The five row slabs a point stores into its output block, last store first: slab `k` (rows `80 k … 80 k + 79`)
    is adjacency slab `k` times the support. -/
def outPieces (a0 a1 a2 a3 a4 : Vec F S80x10000 .f32) (s : Vec F S10000x128 .bf16) : List (View.Piece (Elt F) S400x128 .f32) :=
  [⟨Rect.unit ![320, 0] S80x128.size inb_S400x128_S80x128_320_0, k0_pay1 a4 s⟩,
   ⟨Rect.unit ![240, 0] S80x128.size inb_S400x128_S80x128_240_0, k0_pay6 a3 s⟩,
   ⟨Rect.unit ![160, 0] S80x128.size inb_S400x128_S80x128_160_0, k0_pay5 a2 s⟩,
   ⟨Rect.unit ![80, 0] S80x128.size inb_S400x128_S80x128_80_0, k0_pay4 a1 s⟩,
   ⟨Rect.unit ![0, 0] S80x128.size inb_S400x128_S80x128_0_0, k0_pay3 a0 s⟩]

/-- The five slabs tile the 400-row block. -/
theorem outPieces_cover (a0 a1 a2 a3 a4 : Vec F S80x10000 .f32) (s : Vec F S10000x128 .bf16) (y : S400x128.Idx) :
    ∃ pc ∈ outPieces a0 a1 a2 a3 a4 s, y ∈ pc.1.set :=
  View.cover_of_tiledL (outPieces a0 a1 a2 a3 a4 s) S80x128.size (by sl_kernel_rfl) y

/-- The output block a point leaves: the five slabs read as one 400×128 array. -/
def outBlock (a0 a1 a2 a3 a4 : Vec F S80x10000 .f32) (s : Vec F S10000x128 .bf16) : Vec F S400x128 .f32 :=
  View.canon (outPieces a0 a1 a2 a3 a4 s)

set_option maxHeartbeats 1000000 in
/-- A LATER point (not the first): the scratch holds a support `s`; the body reads the five adjacency slabs and `s`,
    leaves every input and the scratch as they were, and the output block at the five products. -/
theorem run_later (c : Dev nD) (i : grid0.Coords) (hc : ¬ isFirst i)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .bf16) (harg9 : arg9.IsWhole)
    (x0 : Vec F S10000x128 .f32) (x1 : Vec F S128x128 .f32) (a0 a1 a2 a3 a4 : Vec F S80x10000 .f32) (s : Vec F S10000x128 .bf16)
    (E : Set ℕ) (K : PUnit → sProp 𝕄) :
    iprop(owns (c : Thread nD τ) arg1 fullShare x0 ∗ owns (c : Thread nD τ) arg2 fullShare x1
        ∗ owns (c : Thread nD τ) arg3 fullShare a0 ∗ owns (c : Thread nD τ) arg4 fullShare a1 ∗ owns (c : Thread nD τ) arg5 fullShare a2
        ∗ owns (c : Thread nD τ) arg6 fullShare a3 ∗ owns (c : Thread nD τ) arg7 fullShare a4
        ∗ (∃ d, owns (c : Thread nD τ) arg8 fullShare d) ∗ owns (c : Thread nD τ) arg9 fullShare s
        ∗ (iprop(owns (c : Thread nD τ) arg1 fullShare x0 ∗ owns (c : Thread nD τ) arg2 fullShare x1
            ∗ owns (c : Thread nD τ) arg3 fullShare a0 ∗ owns (c : Thread nD τ) arg4 fullShare a1 ∗ owns (c : Thread nD τ) arg5 fullShare a2
            ∗ owns (c : Thread nD τ) arg6 fullShare a3 ∗ owns (c : Thread nD τ) arg7 fullShare a4
            ∗ owns (c : Thread nD τ) arg8 fullShare (outBlock a0 a1 a2 a3 a4 s) ∗ owns (c : Thread nD τ) arg9 fullShare s) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1
  obtain rfl := harg3.eq_unread hf2; obtain rfl := harg4.eq_unread hf3; obtain rfl := harg5.eq_unread hf4
  obtain rfl := harg6.eq_unread hf5; obtain rfl := harg7.eq_unread hf6; obtain rfl := harg9.eq_unread hf8
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_eq_canon _ _ _ ?_).trans ?_
    · exact View.cover_of_tiledL _ S80x128.size (by sl_kernel_rfl)
    · unfold outBlock outPieces
      simp only [View.readAt_eq_ld, Memref.IsWhole.read_unread, View.ld_unit_zero (S := S80x10000) zero_off, View.ld_unit_zero (S := S10000x128) zero_off, View.ld_unit_zero (S := S128x128) zero_off]
  · iexists _; isplitr; · ipureintro; exact hf8
    iexact H8

set_option maxHeartbeats 1000000 in
/-- The FIRST point: the scratch holds anything; the body reads features and weights, fills the scratch with their
    product, then proceeds as at a later point with that support. -/
theorem run_first (c : Dev nD) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .bf16) (harg9 : arg9.IsWhole)
    (x0 : Vec F S10000x128 .f32) (x1 : Vec F S128x128 .f32) (a0 a1 a2 a3 a4 : Vec F S80x10000 .f32)
    (E : Set ℕ) (K : PUnit → sProp 𝕄) :
    iprop(owns (c : Thread nD τ) arg1 fullShare x0 ∗ owns (c : Thread nD τ) arg2 fullShare x1
        ∗ owns (c : Thread nD τ) arg3 fullShare a0 ∗ owns (c : Thread nD τ) arg4 fullShare a1 ∗ owns (c : Thread nD τ) arg5 fullShare a2
        ∗ owns (c : Thread nD τ) arg6 fullShare a3 ∗ owns (c : Thread nD τ) arg7 fullShare a4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare a0 ∗ owns (c : Thread nD τ) arg4 fullShare a1 ∗ owns (c : Thread nD τ) arg5 fullShare a2
            ∗ owns (c : Thread nD τ) arg6 fullShare a3 ∗ owns (c : Thread nD τ) arg7 fullShare a4
            ∗ owns (c : Thread nD τ) arg8 fullShare (outBlock a0 a1 a2 a3 a4 (supportOf x0 x1)) ∗ owns (c : Thread nD τ) arg9 fullShare (supportOf x0 x1)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1
  obtain rfl := harg3.eq_unread hf2; obtain rfl := harg4.eq_unread hf3; obtain rfl := harg5.eq_unread hf4
  obtain rfl := harg6.eq_unread hf5; obtain rfl := harg7.eq_unread hf6
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_eq_canon _ _ _ ?_).trans ?_
    · exact View.cover_of_tiledL _ S80x128.size (by sl_kernel_rfl)
    · sl_unfold_words
      unfold outBlock outPieces
      simp only [View.readAt_eq_ld, Memref.IsWhole.read_unread, View.ld_unit_zero (S := S80x10000) zero_off, View.ld_unit_zero (S := S10000x128) zero_off, View.ld_unit_zero (S := S128x128) zero_off, View.readCov_unit_zero (S := S10000x128) _ zero_off]
  · iexists _; isplitr
    swap; · iexact H8
    ipureintro
    sl_unfold_words
    refine (View.read_writes_eq_canon _ _ _ (fun y => ⟨_, List.mem_singleton_self _, View.mem_set_unit_zero zero_off inb_S10000x128_S10000x128_0_0 y⟩)).trans ?_
    rw [View.canon_unit_zero zero_off]
    simp only [View.readAt_eq_ld, Memref.IsWhole.read_unread, View.ld_unit_zero (S := S80x10000) zero_off, View.ld_unit_zero (S := S10000x128) zero_off, View.ld_unit_zero (S := S128x128) zero_off]

end Cert.KernelIdeal.Hand

end
-- ==== Proof.Data.lean ====
import proofs.«170291_g21157008900740_cont_8to1_106_8_alg».proof.Proof.Gen.KernelIdeal.Launch
import proofs.«170291_g21157008900740_cont_8to1_106_8_alg».proof.Proof.Gen.KernelIdeal.Skeleton
import proofs.«170291_g21157008900740_cont_8to1_106_8_alg».proof.Proof.Gen.KernelIdeal.Points
import Idealize.ShloMosaic.Lib.Pipeline.FrameBody
import Idealize.ShloMosaic.Lib.Pipeline.Value
import proofs.«170291_g21157008900740_cont_8to1_106_8_alg».proof.Proof.Body
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The proof data of the one pallas_call

The grid has 25 points. Point `t` is handed: the whole feature array and the whole weight array (windows 0 and 1,
fetched once), five consecutive 80-row slabs of the adjacency matrix (windows 2 to 6: slab `5 t + k` for window
`2 + k`; all five windows read the SAME array), and the 400-row block `t` of the result (window 7). Between points the
scratch buffer carries the support computed at point 0. -/

variable (m : (ℓ : Loc nD τ sig) → Buf (Elt F) ℓ) (ρ : Dev nD → PrngReg)

/-- The arrays as the region finds them: @main has no operation before the call, so these are the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, Nat.lt_of_lt_of_eq (by decide : 0 < 25) N_0.symm⟩

/-- The support: what the first point leaves in the scratch buffer, features times weights. -/
def supp (c : Dev nD) : Vec F S10000x128 .bf16 := supportOf (iblk m c 0 t0) (iblk m c 1 t0)

/-- The scratch buffer, as a memref. -/
abbrev scM : Memref sig .tc .vmem S10000x128 .bf16 := Memref.whole cc0_scratch0

/-- Each window's current staging memref at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S80x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S80x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)

/-- The invariant between points: before the first point the scratch holds anything; after any point it holds the support. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_zero (c : Dev nD) : PhiS m c 0 = iprop(∃ d, owns (c : Thread nD τ) scM fullShare d) := by
  unfold PhiS; rw [scopedRest0_eq]; simp only [scM, owns_whole]; try rfl

theorem PhiS_pos (c : Dev nD) (n : ℕ) (hn : n ≠ 0) : PhiS m c n = owns (c : Thread nD τ) scM fullShare (supp m c) := by
  cases n with
  | zero => exact absurd rfl hn
  | succ n => rfl

/-- The proof data: every input window's buffer is left as found (its block); the result window's buffer is left at
    the five products of the point's adjacency slabs with the support. The five adjacency windows share the
    adjacency array: each holds a fifth part of it (quarters of the share, one of them halved), which suffices to read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 2 t) (iblk m c 3 t) (iblk m c 4 t) (iblk m c 5 t) (iblk m c 6 t) (supp m c)
  Φ t := PhiS m c t.val
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right.left
    | ⟨6, _⟩ => fullShare.right.right.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = outBlock (iblk m c 2 t) (iblk m c 3 t) (iblk m c 4 t) (iblk m c 5 t) (iblk m c 6 t) (supp m c) := by
  dsimp only [dats]

/-- Each input window's current buffer holds its block at every point, fetched there or not: the body leaves it in place,
    and a window not fetched again has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

end Cert.KernelIdeal.Hand

end
-- ==== Proof.Oblig.lean ====
import proofs.«170291_g21157008900740_cont_8to1_106_8_alg».proof.Proof.Gen.KernelIdeal.Launch
import proofs.«170291_g21157008900740_cont_8to1_106_8_alg».proof.Proof.Gen.KernelIdeal.Skeleton
import proofs.«170291_g21157008900740_cont_8to1_106_8_alg».proof.Proof.Gen.KernelIdeal.Points
import Idealize.ShloMosaic.Lib.Pipeline.FrameBody
import Idealize.ShloMosaic.Lib.Pipeline.Value
import proofs.«170291_g21157008900740_cont_8to1_106_8_alg».proof.Proof.Data
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body obligation

At every grid point the body, handed the invariant and each window's current buffer at what it then holds, runs to
the invariant of the next point and each buffer at what the proof data say it leaves. Two cases: the first point
(scratch at anything, filled with the support) and every later point (scratch at the support, only read). -/

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is ever idle: each buffer is left at the proof data's `after`. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (supp m c) := rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [leaves0, leaves1, leaves2, leaves3, leaves4, leaves5, leaves6, leaves7,
    after0, after1, after2, after3, after4, after5, after6, after7, Phi_succ, Phi_castSucc]
  by_cases hz : t.val = 0
  · obtain rfl : t = t0 := Fin.ext hz
    rw [show PhiS m c (t0 : Fin cfg0.N).val = PhiS m c 0 from rfl, PhiS_zero]
    unfold supp
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t0) ((isFirst_iff t0).mpr rfl) _ _ _ _ _ _ _ _ _ _ _ _ _ _ _ _ _ _
      (iblk m c 0 t0) (iblk m c 1 t0) (iblk m c 2 t0) (iblk m c 3 t0) (iblk m c 4 t0) (iblk m c 5 t0) (iblk m c 6 t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c t.val hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) (fun h => hz ((isFirst_iff t).mp h)) _ _ _ _ _ _ _ _ _ _ _ _ _ _ _ _ _ _
      (iblk m c 0 t) (iblk m c 1 t) (iblk m c 2 t) (iblk m c 3 t) (iblk m c 4 t) (iblk m c 5 t) (iblk m c 6 t) (supp m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Shares.lean ====
import proofs.«170291_g21157008900740_cont_8to1_106_8_alg».proof.Proof.Data
import Idealize.ShloMosaic.Lib.Pipeline.Launch
import Idealize.ShloMosaic.Lib.Pipeline.Kit
import Idealize.ShloMosaic.Rules.PointsTo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays at entry

The pipeline's windows name four distinct arrays: the features (window 0), the weights (window 1), the adjacency
matrix (windows 2 to 6, all five) and the result (window 7). The launch hands each whole at the full share. The
features, the weights and the result go to their one window whole. The adjacency matrix's full share is cut in two,
each half in two again, and the last quarter once more: five parts, one for each window that reads it. -/

/-- The share each window holds its array at. -/
theorem share0 (c : Dev nD) : (dats m 0 c).share 0 = fullShare := rfl
theorem share1 (c : Dev nD) : (dats m 0 c).share 1 = fullShare := rfl
theorem share2 (c : Dev nD) : (dats m 0 c).share 2 = fullShare.left.left := rfl
theorem share3 (c : Dev nD) : (dats m 0 c).share 3 = fullShare.left.right := rfl
theorem share4 (c : Dev nD) : (dats m 0 c).share 4 = fullShare.right.left := rfl
theorem share5 (c : Dev nD) : (dats m 0 c).share 5 = fullShare.right.right.left := rfl
theorem share6 (c : Dev nD) : (dats m 0 c).share 6 = fullShare.right.right.right := rfl
theorem share7 (c : Dev nD) : (dats m 0 c).share 7 = fullShare := rfl

/-- The buffers behind the windows' arrays, each whole at the full share at the entry contents, make the proof data's
    arrays at entry: three arrays go whole to their window, the adjacency matrix is split five ways. -/
theorem hsplit (c : Dev nD) :
    Pipeline.arrBufs (Ix := Unit) (Name := ℕ) (U := UR sig nD τ) (Lvl := ℕ) spec0 c (V m c) ⊢ (dats m 0 c).arrays ((dats m 0 c).arrAt · 0) := by
  unfold Pipeline.arrBufs Dat.arrays
  rw [bigSep_eq_bigSepL_of_eq [main_arg0, main_arg2, main_arg1, main_v0] (by decide) (by decide), bigSep_W0]
  simp only [bigSepL_cons_cons, bigSepL_singleton, View.set_whole]
  rw [share0, share1, share2, share3, share4, share5, share6, share7]
  show iprop(_ ∗ _ ∗ _ ∗ _) ⊢ _
  iintro ⟨H0, H2, H1, Hv⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  ihave Hrr := (pointsTo_share (PosShare.mem_left_op_right fullShare.right.right)).1 $$ Hrr
  icases Hrr with ⟨Hrrl, Hrrr⟩
  isplitl [H0]; · iexact H0
  isplitl [H2]; · iexact H2
  isplitl [Hll]; · iexact Hll
  isplitl [Hlr]; · iexact Hlr
  isplitl [Hrl]; · iexact Hrl
  isplitl [Hrrl]; · iexact Hrrl
  isplitl [Hrrr]; · iexact Hrrr
  iexact Hv

end Cert.KernelIdeal.Hand

end
-- ==== Proof.Launch.lean ====
import proofs.«170291_g21157008900740_cont_8to1_106_8_alg».proof.Proof.Gen.KernelIdeal.Launch
import proofs.«170291_g21157008900740_cont_8to1_106_8_alg».proof.Proof.Gen.KernelIdeal.Skeleton
import proofs.«170291_g21157008900740_cont_8to1_106_8_alg».proof.Proof.Gen.KernelIdeal.Points
import Idealize.ShloMosaic.Lib.Pipeline.FrameBody
import Idealize.ShloMosaic.Lib.Pipeline.Value
import proofs.«170291_g21157008900740_cont_8to1_106_8_alg».proof.Proof.Oblig
import proofs.«170291_g21157008900740_cont_8to1_106_8_alg».proof.Proof.Shares
import Idealize.ShloMosaic.Lib.Pipeline.Launch
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The launch

@main is the one pallas_call. The launch deals the TensorCore its buffers; the four argument and result arrays go to
the pipeline — the adjacency array in five read shares, one per window on it —, the scratch buffer into the
invariant, and the run of the 25 points ends with every window's array at what the proof data compute: the
arguments as they were, the result overwritten block by block. -/

open Idealize.ShloMosaic.Pipeline (cells launchToks)

variable (m : (ℓ : Loc nD τ sig) → Buf (Elt F) ℓ) (ρ : Dev nD → PrngReg)

theorem main_eq (c : Dev nD) : main (F := F) c = (.op (.customCall (Pipeline.entry 0) ()) fun _ => .ret ⟨⟩) := rfl

/-- The invariant after the last point gives the scratch buffer back, its contents forgotten. -/
theorem Phi_last (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by rw [show cfg0.N = 25 from N_0]; decide),
    show Pipeline.scopedRest (Ix := Unit) (Name := ℕ) (U := UR sig nD τ) (Lvl := ℕ) (Val := Elt F) spec0 c = PhiS m c 0 from rfl, PhiS_zero]
  iintro H
  isplitr; · iempintro
  iexists _; iexact H

set_option backward.isDefEq.respectTransparency.types false in
/-- From any memory with zero counters every weakly fair execution of @main terminates, and every window's array ends
    at what the proof data compute for it after the last point. -/
theorem run_main  :
    θ_run defs (onTc (τ := τ) (main (F := F))) (s₀ m ρ)
      (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (cells cfgs cellOf_inj) (launchToks cfgs cellOf_inj)) (hu₀ := .rfl)
    (V := V m) (hmain := Pipeline.hmain_region cfgs 0 defs₀ Variants.none m main (main_eq))
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => Phi_last m c)
    (QY := fun _ _ => True)
    (hY := fun c s' => by
      iintro ⟨-, -, HSI⟩
      imodintro
      isplitr; · ipureintro; trivial
      iexact HSI)
    (hQ := fun s h c w => (h c).1 w)

/-- The same run read at @main's own arrays: the result array at what the proof data compute, each argument unchanged
    (an input window's array is never written). -/
theorem run_args  :
    θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 7,
      (h c 0).trans (((dats m 0 c).arrAt_in 0 rfl _).trans (A_eq m c 0)),
      (h c 2).trans (((dats m 0 c).arrAt_in 2 rfl _).trans (A_eq m c 2)),
      (h c 1).trans (((dats m 0 c).arrAt_in 1 rfl _).trans (A_eq m c 1))⟩) (run_main m ρ)

end Cert.KernelIdeal.Hand

end
-- ==== Proof.Spec.lean ====
/-
  The result both programs compute, as one function of the three argument arrays over the extended reals:
  graph convolution without bias, `adj · (v · W)`. Entry `(r, j)` is
  `∑ k, adj[r, k] · (∑ l, v[k, l] · W[l, j])`: the inner sum is the feature transform ("support") of node `k`,
  the outer sum aggregates the supports of all nodes weighted by row `r` of the dense adjacency matrix.
  Nothing here mentions a program; the kernel's and the reference's values are each shown to be this function.
-/
import Idealize.ShloMosaic.PureOps.Ideal
import Idealize.ShloMosaic.Lib.ValueIdx

noncomputable section

open scoped BigOperators

namespace Cert.Gcn

open Idealize.ShloMosaic Idealize.ShloMosaic.ValueIdx

/-- Node features and the result: 10000 nodes, 128 channels. -/
abbrev SFeat : Shape := ⟨2, ![10000, 128]⟩
/-- The dense adjacency matrix. -/
abbrev SAdj : Shape := ⟨2, ![10000, 10000]⟩
/-- The weight matrix. -/
abbrev SWgt : Shape := ⟨2, ![128, 128]⟩

/-- The transformed features of node `k` in channel `j`: `(v · W)[k, j]`. -/
def supportAt (v : SFeat.Idx → EReal) (W : SWgt.Idx → EReal) (k : Fin 10000) (j : Fin 128) : EReal :=
  ∑ l : Fin 128, v (ix2 k l) * W (ix2 l j)

/-- The aggregated features of node `r` in channel `j`: `(adj · (v · W))[r, j]`. -/
def gcnAt (v : SFeat.Idx → EReal) (adj : SAdj.Idx → EReal) (W : SWgt.Idx → EReal) (r : Fin 10000) (j : Fin 128) : EReal :=
  ∑ k : Fin 10000, adj (ix2 r k) * supportAt v W k j

/-- The whole result array. -/
def gcn (v : SFeat.Idx → EReal) (adj : SAdj.Idx → EReal) (W : SWgt.Idx → EReal) : SFeat.Idx → EReal :=
  fun i => gcnAt v adj W (i 0) (i 1)

theorem gcn_ix2 (v : SFeat.Idx → EReal) (adj : SAdj.Idx → EReal) (W : SWgt.Idx → EReal) (r : Fin 10000) (j : Fin 128) :
    gcn v adj W (ix2 r j) = gcnAt v adj W r j := rfl

end Cert.Gcn

end
-- ==== Proof.KValueA.lean ====
import proofs.«170291_g21157008900740_cont_8to1_106_8_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Idealize.ShloMosaic Idealize.ShloMosaic.ValueIdx
open Cert.KernelIdeal Cert.KernelIdeal.Gen

/-! ## The body's two kinds of product, read at an index over the extended reals

The body multiplies twice. Once, at the first grid point, the features [10000,128] by the weights [128,128]: entry
`(k, j)` of the product is `∑ l, x[k, l] · w[l, j]`. And five times at every point, an adjacency slab [80,10000] by
the support [10000,128]: entry `(p, q)` is `∑ k, a[p, k] · s[k, q]`. Over the extended reals the change of float
format before and after a product is the identity, and a product into a zero accumulator is the plain sum. -/

/-! ### Slab times support: the operand indices of the dimension numbers, axis by axis -/

theorem slab_lhs_0 (i : S80x128.Idx) (q : dot_S80x10000_S10000x128_S80x128_1_0_0_1_n_n.contr.Idx) :
    (dot_S80x10000_S10000x128_S80x128_1_0_0_1_n_n.lhsIdx i q 0).val = (i 0).val := by
  unfold DotDims.lhsIdx
  rw [dif_neg (show ¬(0 : Fin S80x10000.rank) ∈ dot_S80x10000_S10000x128_S80x128_1_0_0_1_n_n.lhsBatch by decide), dif_pos (show (0 : Fin S80x10000.rank) ∈ dot_S80x10000_S10000x128_S80x128_1_0_0_1_n_n.lhsNonContracting by decide)]
  rfl
theorem slab_lhs_1 (i : S80x128.Idx) (q : dot_S80x10000_S10000x128_S80x128_1_0_0_1_n_n.contr.Idx) :
    (dot_S80x10000_S10000x128_S80x128_1_0_0_1_n_n.lhsIdx i q 1).val = (q ⟨0, by decide⟩).val :=
  dot_S80x10000_S10000x128_S80x128_1_0_0_1_n_n.lhsIdx_val_of_single rfl i q
theorem slab_rhs_0 (i : S80x128.Idx) (q : dot_S80x10000_S10000x128_S80x128_1_0_0_1_n_n.contr.Idx) :
    (dot_S80x10000_S10000x128_S80x128_1_0_0_1_n_n.rhsIdx i q 0).val = (q ⟨0, by decide⟩).val :=
  dot_S80x10000_S10000x128_S80x128_1_0_0_1_n_n.rhsIdx_val_of_single rfl i q
theorem slab_rhs_1 (i : S80x128.Idx) (q : dot_S80x10000_S10000x128_S80x128_1_0_0_1_n_n.contr.Idx) :
    (dot_S80x10000_S10000x128_S80x128_1_0_0_1_n_n.rhsIdx i q 1).val = (i 1).val := by
  unfold DotDims.rhsIdx
  rw [dif_neg (show ¬(1 : Fin S10000x128.rank) ∈ dot_S80x10000_S10000x128_S80x128_1_0_0_1_n_n.rhsBatch by decide), dif_pos (show (1 : Fin S10000x128.rank) ∈ dot_S80x10000_S10000x128_S80x128_1_0_0_1_n_n.rhsNonContracting by decide)]
  rfl

/-- A slab times the support into a zero accumulator, at entry `(p, q)`: the sum over the 10000 nodes. -/
theorem slab_matmul_apply (a : FVec Ideal S80x10000 .bf16) (s : FVec Ideal S10000x128 .bf16) (p : Fin 80) (q : Fin 128) :
    matmul dot_S80x10000_S10000x128_S80x128_1_0_0_1_n_n none a s (constant S80x128 .f32 0x00000000#32) (ix2 p q)
      = ∑ k : Fin 10000, a (ix2 p k) * s (ix2 k q) := by
  refine (Ideal.matmul_constant_zero_apply dot_S80x10000_S10000x128_S80x128_1_0_0_1_n_n none a s (ix2 p q)).trans ?_
  rw [← Equiv.sum_comp (contrEquiv1 dot_S80x10000_S10000x128_S80x128_1_0_0_1_n_n 10000 rfl rfl).symm]
  refine Finset.sum_congr rfl fun k _ => ?_
  have hk := contrEquiv1_symm_val dot_S80x10000_S10000x128_S80x128_1_0_0_1_n_n 10000 rfl rfl k
  have el : dot_S80x10000_S10000x128_S80x128_1_0_0_1_n_n.lhsIdx (ix2 p q) ((contrEquiv1 dot_S80x10000_S10000x128_S80x128_1_0_0_1_n_n 10000 rfl rfl).symm k) = ix2 p k := funext fun d => Fin.ext (by
    match d with
    | ⟨0, _⟩ => exact slab_lhs_0 _ _
    | ⟨1, _⟩ => exact (slab_lhs_1 _ _).trans hk)
  have er : dot_S80x10000_S10000x128_S80x128_1_0_0_1_n_n.rhsIdx (ix2 p q) ((contrEquiv1 dot_S80x10000_S10000x128_S80x128_1_0_0_1_n_n 10000 rfl rfl).symm k) = ix2 k q := funext fun d => Fin.ext (by
    match d with
    | ⟨0, _⟩ => exact (slab_rhs_0 _ _).trans hk
    | ⟨1, _⟩ => exact slab_rhs_1 _ _)
  rw [el, er]

/-! ### Features times weights: the same for its dimension numbers -/

theorem feat_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem feat_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem feat_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem feat_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Features times weights into a zero accumulator, at entry `(k, j)`: the sum over the 128 input channels. -/
theorem feat_matmul_apply (x : FVec Ideal S10000x128 .f32) (w : FVec Ideal S128x128 .f32) (k : Fin 10000) (j : Fin 128) :
    matmul dot_S10000x128_S128x128_S10000x128_1_0_0_1_n_n none x w (constant S10000x128 .f32 0x00000000#32) (ix2 k j)
      = ∑ l : Fin 128, x (ix2 k l) * w (ix2 l j) := by
  refine (Ideal.matmul_constant_zero_apply dot_S10000x128_S128x128_S10000x128_1_0_0_1_n_n none x w (ix2 k j)).trans ?_
  rw [← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 k j) ((contrEquiv1 dot_S10000x128_S128x128_S10000x128_1_0_0_1_n_n 128 rfl rfl).symm l) = ix2 k l := funext fun d => Fin.ext (by
    match d with
    | ⟨0, _⟩ => exact feat_lhs_0 _ _
    | ⟨1, _⟩ => exact (feat_lhs_1 _ _).trans hl)
  have er : dot_S10000x128_S128x128_S10000x128_1_0_0_1_n_n.rhsIdx (ix2 k j) ((contrEquiv1 dot_S10000x128_S128x128_S10000x128_1_0_0_1_n_n 128 rfl rfl).symm l) = ix2 l j := funext fun d => Fin.ext (by
    match d with
    | ⟨0, _⟩ => exact (feat_rhs_0 _ _).trans hl
    | ⟨1, _⟩ => exact feat_rhs_1 _ _)
  rw [el, er]

/-! ### The payloads -/

/-- The support the first point computes, at node `k` and channel `j`. -/
theorem support_apply (x : Vec Ideal S10000x128 .f32) (w : Vec Ideal S128x128 .f32) (k : Fin 10000) (j : Fin 128) :
    k0_pay2 (F := Ideal) x w (ix2 k j) = ∑ l : Fin 128, x (ix2 k l) * w (ix2 l j) := by
  unfold k0_pay2
  refine (congrFun (shapeCast_self _ _) (ix2 k j)).trans ?_
  exact feat_matmul_apply x w k j

/-- Each of the five stored products, at row `p` of its slab and channel `q`. -/
theorem slab1_apply (a : Vec Ideal S80x10000 .f32) (s : Vec Ideal S10000x128 .bf16) (p : Fin 80) (q : Fin 128) :
    k0_pay1 (F := Ideal) a s (ix2 p q) = ∑ k : Fin 10000, a (ix2 p k) * s (ix2 k q) := by
  unfold k0_pay1
  exact slab_matmul_apply (truncf .bf16 a bitsLt_bf16_f32) s p q
theorem slab3_apply (a : Vec Ideal S80x10000 .f32) (s : Vec Ideal S10000x128 .bf16) (p : Fin 80) (q : Fin 128) :
    k0_pay3 (F := Ideal) a s (ix2 p q) = ∑ k : Fin 10000, a (ix2 p k) * s (ix2 k q) := by
  unfold k0_pay3
  exact slab_matmul_apply (truncf .bf16 a bitsLt_bf16_f32) s p q
theorem slab4_apply (a : Vec Ideal S80x10000 .f32) (s : Vec Ideal S10000x128 .bf16) (p : Fin 80) (q : Fin 128) :
    k0_pay4 (F := Ideal) a s (ix2 p q) = ∑ k : Fin 10000, a (ix2 p k) * s (ix2 k q) := by
  unfold k0_pay4
  exact slab_matmul_apply (truncf .bf16 a bitsLt_bf16_f32) s p q
theorem slab5_apply (a : Vec Ideal S80x10000 .f32) (s : Vec Ideal S10000x128 .bf16) (p : Fin 80) (q : Fin 128) :
    k0_pay5 (F := Ideal) a s (ix2 p q) = ∑ k : Fin 10000, a (ix2 p k) * s (ix2 k q) := by
  unfold k0_pay5
  exact slab_matmul_apply (truncf .bf16 a bitsLt_bf16_f32) s p q
theorem slab6_apply (a : Vec Ideal S80x10000 .f32) (s : Vec Ideal S10000x128 .bf16) (p : Fin 80) (q : Fin 128) :
    k0_pay6 (F := Ideal) a s (ix2 p q) = ∑ k : Fin 10000, a (ix2 p k) * s (ix2 k q) := by
  unfold k0_pay6
  exact slab_matmul_apply (truncf .bf16 a bitsLt_bf16_f32) s p q

end Cert.KernelIdeal.HandValue

end
-- ==== Proof.KValue.lean ====
import proofs.«170291_g21157008900740_cont_8to1_106_8_alg».proof.Proof.Data
import proofs.«170291_g21157008900740_cont_8to1_106_8_alg».proof.Proof.Spec
import proofs.«170291_g21157008900740_cont_8to1_106_8_alg».proof.Proof.KValueA
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

/-! ## The value of the result array over the extended reals

Point `t` of the 25 writes rows `400 t … 400 t + 399` of the result. Row `80 j + p` of its block is row `p` of the
`j`-th adjacency slab the point was handed, which is row `(5 t + j) · 80 + p = 400 t + 80 j + p` of the adjacency
matrix, times the support; and the support is features times weights. So every entry `(r, q)` of the result is
`∑ k, adj[r, k] · (∑ l, v[k, l] · W[l, q])`, the specification. The 25 blocks tile the 10000 rows. -/

variable (m : (ℓ : Loc nD τ sig) → Buf (Elt Ideal) ℓ)

/-- The three argument arrays as the region finds them, typed by their literal shapes. -/
abbrev feat (c : Dev nD) : Cert.Gcn.SFeat.Idx → EReal := m ((c : Thread nD τ).loc main_arg0)
abbrev adjm (c : Dev nD) : Cert.Gcn.SAdj.Idx → EReal := m ((c : Thread nD τ).loc main_arg1)
abbrev wgt (c : Dev nD) : Cert.Gcn.SWgt.Idx → EReal := m ((c : Thread nD τ).loc main_arg2)

/-! ### The block indices, decided over the grid -/

/-- Features and weights are one block each, at block index (0, 0), at every point. -/
theorem idx_in : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The five adjacency windows at point `t` are at row-block indices `5 t`, …, `5 t + 4`. -/
theorem idx_adj2 : ∀ t : Fin cfg0.N, win0_2.index t (0 : Fin 2) = 5 * t.val + 0 ∧ win0_2.index t (1 : Fin 2) = 0 :=
  (by decide +kernel : ∀ t : Fin grid0.N, _)
theorem idx_adj3 : ∀ t : Fin cfg0.N, win0_3.index t (0 : Fin 2) = 5 * t.val + 1 ∧ win0_3.index t (1 : Fin 2) = 0 :=
  (by decide +kernel : ∀ t : Fin grid0.N, _)
theorem idx_adj4 : ∀ t : Fin cfg0.N, win0_4.index t (0 : Fin 2) = 5 * t.val + 2 ∧ win0_4.index t (1 : Fin 2) = 0 :=
  (by decide +kernel : ∀ t : Fin grid0.N, _)
theorem idx_adj5 : ∀ t : Fin cfg0.N, win0_5.index t (0 : Fin 2) = 5 * t.val + 3 ∧ win0_5.index t (1 : Fin 2) = 0 :=
  (by decide +kernel : ∀ t : Fin grid0.N, _)
theorem idx_adj6 : ∀ t : Fin cfg0.N, win0_6.index t (0 : Fin 2) = 5 * t.val + 4 ∧ win0_6.index t (1 : Fin 2) = 0 :=
  (by decide +kernel : ∀ t : Fin grid0.N, _)

/-- The result window at point `t` is at row-block index `t`. -/
theorem idx_out : ∀ t : Fin cfg0.N, win0_7.index t (0 : Fin 2) = t.val ∧ win0_7.index t (1 : Fin 2) = 0 :=
  (by decide +kernel : ∀ t : Fin grid0.N, _)

/-! ### The input blocks, read off their arrays -/

/-- The feature window's block is the whole feature array. -/
theorem iblk_feat (c : Dev nD) (t : Fin cfg0.N) (k : Fin 10000) (l : Fin 128) :
    (iblk m c 0 t : Vec Ideal S10000x128 .f32) (ix2 k l) = feat m c (ix2 k l) := by
  obtain ⟨e0, e1, -, -⟩ := idx_in t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 10000 + 1 * k.val = k.val; rw [e0]; omega
  | ⟨1, _⟩ => show win0_0.index t (1 : Fin 2) * 128 + 1 * l.val = l.val; rw [e1]; omega

/-- The weight window's block is the whole weight array. -/
theorem iblk_wgt (c : Dev nD) (t : Fin cfg0.N) (l : Fin 128) (j : Fin 128) :
    (iblk m c 1 t : Vec Ideal S128x128 .f32) (ix2 l j) = wgt m c (ix2 l j) := by
  obtain ⟨-, -, e0, e1⟩ := idx_in t
  unfold iblk
  rw [View.read_apply]
  show V m c main_arg2 _ = m ((c : Thread nD τ).loc main_arg2) _
  unfold V
  congr 1
  funext a
  apply Fin.ext
  match a with
  | ⟨0, _⟩ => show win0_1.index t (0 : Fin 2) * 128 + 1 * l.val = l.val; rw [e0]; omega
  | ⟨1, _⟩ => show win0_1.index t (1 : Fin 2) * 128 + 1 * j.val = j.val; rw [e1]; omega

/-- Row `p` of the `j`-th adjacency slab of point `t` is row `(5 t + j) · 80 + p` of the adjacency matrix. -/
theorem iblk_adj2 (c : Dev nD) (t : Fin cfg0.N) (p : Fin 80) (k r : Fin 10000) (hr : r.val = (5 * t.val + 0) * 80 + p.val) :
    (iblk m c 2 t : Vec Ideal S80x10000 .f32) (ix2 p k) = adjm m c (ix2 r k) := by
  obtain ⟨e0, e1⟩ := idx_adj2 t
  unfold iblk
  rw [View.read_apply]
  show V m c main_arg1 _ = m ((c : Thread nD τ).loc main_arg1) _
  unfold V
  congr 1
  funext a
  apply Fin.ext
  match a with
  | ⟨0, _⟩ => show win0_2.index t (0 : Fin 2) * 80 + 1 * p.val = r.val; rw [e0]; omega
  | ⟨1, _⟩ => show win0_2.index t (1 : Fin 2) * 10000 + 1 * k.val = k.val; rw [e1]; omega
theorem iblk_adj3 (c : Dev nD) (t : Fin cfg0.N) (p : Fin 80) (k r : Fin 10000) (hr : r.val = (5 * t.val + 1) * 80 + p.val) :
    (iblk m c 3 t : Vec Ideal S80x10000 .f32) (ix2 p k) = adjm m c (ix2 r k) := by
  obtain ⟨e0, e1⟩ := idx_adj3 t
  unfold iblk
  rw [View.read_apply]
  show V m c main_arg1 _ = m ((c : Thread nD τ).loc main_arg1) _
  unfold V
  congr 1
  funext a
  apply Fin.ext
  match a with
  | ⟨0, _⟩ => show win0_3.index t (0 : Fin 2) * 80 + 1 * p.val = r.val; rw [e0]; omega
  | ⟨1, _⟩ => show win0_3.index t (1 : Fin 2) * 10000 + 1 * k.val = k.val; rw [e1]; omega
theorem iblk_adj4 (c : Dev nD) (t : Fin cfg0.N) (p : Fin 80) (k r : Fin 10000) (hr : r.val = (5 * t.val + 2) * 80 + p.val) :
    (iblk m c 4 t : Vec Ideal S80x10000 .f32) (ix2 p k) = adjm m c (ix2 r k) := by
  obtain ⟨e0, e1⟩ := idx_adj4 t
  unfold iblk
  rw [View.read_apply]
  show V m c main_arg1 _ = m ((c : Thread nD τ).loc main_arg1) _
  unfold V
  congr 1
  funext a
  apply Fin.ext
  match a with
  | ⟨0, _⟩ => show win0_4.index t (0 : Fin 2) * 80 + 1 * p.val = r.val; rw [e0]; omega
  | ⟨1, _⟩ => show win0_4.index t (1 : Fin 2) * 10000 + 1 * k.val = k.val; rw [e1]; omega
theorem iblk_adj5 (c : Dev nD) (t : Fin cfg0.N) (p : Fin 80) (k r : Fin 10000) (hr : r.val = (5 * t.val + 3) * 80 + p.val) :
    (iblk m c 5 t : Vec Ideal S80x10000 .f32) (ix2 p k) = adjm m c (ix2 r k) := by
  obtain ⟨e0, e1⟩ := idx_adj5 t
  unfold iblk
  rw [View.read_apply]
  show V m c main_arg1 _ = m ((c : Thread nD τ).loc main_arg1) _
  unfold V
  congr 1
  funext a
  apply Fin.ext
  match a with
  | ⟨0, _⟩ => show win0_5.index t (0 : Fin 2) * 80 + 1 * p.val = r.val; rw [e0]; omega
  | ⟨1, _⟩ => show win0_5.index t (1 : Fin 2) * 10000 + 1 * k.val = k.val; rw [e1]; omega
theorem iblk_adj6 (c : Dev nD) (t : Fin cfg0.N) (p : Fin 80) (k r : Fin 10000) (hr : r.val = (5 * t.val + 4) * 80 + p.val) :
    (iblk m c 6 t : Vec Ideal S80x10000 .f32) (ix2 p k) = adjm m c (ix2 r k) := by
  obtain ⟨e0, e1⟩ := idx_adj6 t
  unfold iblk
  rw [View.read_apply]
  show V m c main_arg1 _ = m ((c : Thread nD τ).loc main_arg1) _
  unfold V
  congr 1
  funext a
  apply Fin.ext
  match a with
  | ⟨0, _⟩ => show win0_6.index t (0 : Fin 2) * 80 + 1 * p.val = r.val; rw [e0]; omega
  | ⟨1, _⟩ => show win0_6.index t (1 : Fin 2) * 10000 + 1 * k.val = k.val; rw [e1]; omega

/-- The support in the scratch buffer is the specification's feature transform. -/
theorem supp_apply (c : Dev nD) (k : Fin 10000) (q : Fin 128) :
    (supp m c) (ix2 k q) = Cert.Gcn.supportAt (feat m c) (wgt m c) k q := by
  unfold supp Cert.Gcn.supportAt
  refine (support_apply _ _ k q).trans (Finset.sum_congr rfl fun l _ => ?_)
  rw [iblk_feat, iblk_wgt]

/-! ### The output block of a point -/

/-- The specification at an index given by its coordinates. -/
theorem spec_row (v : Cert.Gcn.SFeat.Idx → EReal) (adj : Cert.Gcn.SAdj.Idx → EReal) (W : Cert.Gcn.SWgt.Idx → EReal)
    (i : Cert.Gcn.SFeat.Idx) (r : Fin 10000) (q : Fin 128) (h0 : (i 0).val = r.val) (h1 : (i 1).val = q.val) :
    Cert.Gcn.gcn v adj W i = ∑ k : Fin 10000, adj (ix2 r k) * Cert.Gcn.supportAt v W k q := by
  obtain rfl : i = ix2 r q := funext fun a => Fin.ext (by match a with | ⟨0, _⟩ => exact h0 | ⟨1, _⟩ => exact h1)
  exact Cert.Gcn.gcn_ix2 v adj W r q

/-- Block `t` of the specification, at a block index `y`: the specification at row `400 t + y₀`, channel `y₁`. -/
theorem out_row (c : Dev nD) (t : Fin cfg0.N) (y : S400x128.Idx) (r : Fin 10000) (q : Fin 128)
    (hr : r.val = t.val * 400 + (y 0).val) (hq : q.val = (y 1).val) :
    (((cfg0.win 7).blk t).view.read (Elt Ideal) (Cert.Gcn.gcn (feat m c) (adjm m c) (wgt m c)) : Vec Ideal S400x128 .f32) y
      = ∑ k : Fin 10000, adjm m c (ix2 r k) * Cert.Gcn.supportAt (feat m c) (wgt m c) k q := by
  obtain ⟨o0, o1⟩ := idx_out t
  rw [View.read_apply]
  show Cert.Gcn.gcn (feat m c) (adjm m c) (wgt m c) (((cfg0.win 7).blk t).view.emb y) = _
  refine spec_row _ _ _ _ r q ?_ ?_
  · show win0_7.index t (0 : Fin 2) * 400 + 1 * (y 0).val = r.val; rw [o0, hr]; omega
  · show win0_7.index t (1 : Fin 2) * 128 + 1 * (y 1).val = q.val; rw [o1, hq]; omega

/-- Five stored slabs read as one block: if a function `G` of the block index is, on rows `80 j … 80 j + 79`, slab
    `j` times the support, then the block the point leaves is `G`. -/
theorem outBlock_eq (a0 a1 a2 a3 a4 : Vec Ideal S80x10000 .f32) (s : Vec Ideal S10000x128 .bf16) (G : S400x128.Idx → EReal)
    (h0 : ∀ (p : Fin 80) (q : Fin 128) (y : S400x128.Idx), (y 0).val = 0 + p.val → (y 1).val = q.val →
      G y = ∑ k : Fin 10000, a0 (ix2 p k) * s (ix2 k q))
    (h1 : ∀ (p : Fin 80) (q : Fin 128) (y : S400x128.Idx), (y 0).val = 80 + p.val → (y 1).val = q.val →
      G y = ∑ k : Fin 10000, a1 (ix2 p k) * s (ix2 k q))
    (h2 : ∀ (p : Fin 80) (q : Fin 128) (y : S400x128.Idx), (y 0).val = 160 + p.val → (y 1).val = q.val →
      G y = ∑ k : Fin 10000, a2 (ix2 p k) * s (ix2 k q))
    (h3 : ∀ (p : Fin 80) (q : Fin 128) (y : S400x128.Idx), (y 0).val = 240 + p.val → (y 1).val = q.val →
      G y = ∑ k : Fin 10000, a3 (ix2 p k) * s (ix2 k q))
    (h4 : ∀ (p : Fin 80) (q : Fin 128) (y : S400x128.Idx), (y 0).val = 320 + p.val → (y 1).val = q.val →
      G y = ∑ k : Fin 10000, a4 (ix2 p k) * s (ix2 k q)) :
    outBlock (F := Ideal) a0 a1 a2 a3 a4 s = G := by
  funext y
  unfold outBlock
  refine View.canon_apply_of_pieces G _ ?_ y (outPieces_cover a0 a1 a2 a3 a4 s y)
  intro pc hpc
  unfold outPieces at hpc
  simp only [List.mem_cons, List.not_mem_nil, or_false] at hpc
  rcases hpc with rfl | rfl | rfl | rfl | rfl
  · intro (x : S80x128.Idx)
    obtain ⟨p, q, rfl⟩ : ∃ (p : Fin 80) (q : Fin 128), x = ix2 p q := ⟨x 0, x 1, eq_ix2 x⟩
    exact (slab1_apply a4 s p q).trans
      (h4 p q _ (by show 320 + 1 * p.val = 320 + p.val; omega) (by show 0 + 1 * q.val = q.val; omega)).symm
  · intro (x : S80x128.Idx)
    obtain ⟨p, q, rfl⟩ : ∃ (p : Fin 80) (q : Fin 128), x = ix2 p q := ⟨x 0, x 1, eq_ix2 x⟩
    exact (slab6_apply a3 s p q).trans
      (h3 p q _ (by show 240 + 1 * p.val = 240 + p.val; omega) (by show 0 + 1 * q.val = q.val; omega)).symm
  · intro (x : S80x128.Idx)
    obtain ⟨p, q, rfl⟩ : ∃ (p : Fin 80) (q : Fin 128), x = ix2 p q := ⟨x 0, x 1, eq_ix2 x⟩
    exact (slab5_apply a2 s p q).trans
      (h2 p q _ (by show 160 + 1 * p.val = 160 + p.val; omega) (by show 0 + 1 * q.val = q.val; omega)).symm
  · intro (x : S80x128.Idx)
    obtain ⟨p, q, rfl⟩ : ∃ (p : Fin 80) (q : Fin 128), x = ix2 p q := ⟨x 0, x 1, eq_ix2 x⟩
    exact (slab4_apply a1 s p q).trans
      (h1 p q _ (by show 80 + 1 * p.val = 80 + p.val; omega) (by show 0 + 1 * q.val = q.val; omega)).symm
  · intro (x : S80x128.Idx)
    obtain ⟨p, q, rfl⟩ : ∃ (p : Fin 80) (q : Fin 128), x = ix2 p q := ⟨x 0, x 1, eq_ix2 x⟩
    exact (slab3_apply a0 s p q).trans
      (h0 p q _ (by show 0 + 1 * p.val = 0 + p.val; omega) (by show 0 + 1 * q.val = q.val; omega)).symm

/-- The block point `t` leaves in the result window is block `t` of the specification. -/
theorem block_eq (c : Dev nD) (t : Fin cfg0.N) :
    outBlock (F := Ideal) (iblk m c 2 t) (iblk m c 3 t) (iblk m c 4 t) (iblk m c 5 t) (iblk m c 6 t) (supp m c)
      = ((cfg0.win 7).blk t).view.read (Elt Ideal) (Cert.Gcn.gcn (feat m c) (adjm m c) (wgt m c)) := by
  have ht : t.val < 25 := Nat.lt_of_lt_of_eq t.isLt N_0
  refine outBlock_eq (iblk m c 2 t) (iblk m c 3 t) (iblk m c 4 t) (iblk m c 5 t) (iblk m c 6 t) (supp m c) _ ?_ ?_ ?_ ?_ ?_
  · intro p q y hy0 hy1
    have hy : (y 0).val < 400 := idx2_lt0 y
    have hr : t.val * 400 + (y 0).val < 10000 := by omega
    refine (out_row m c t y ⟨_, hr⟩ q rfl hy1.symm).trans ?_
    show (_ : EReal) = _
    refine Finset.sum_congr rfl fun k _ => ?_
    rw [iblk_adj2 m c t p k ⟨_, hr⟩ (by show t.val * 400 + (y 0).val = (5 * t.val + 0) * 80 + p.val; omega), supp_apply]
  · intro p q y hy0 hy1
    have hy : (y 0).val < 400 := idx2_lt0 y
    have hr : t.val * 400 + (y 0).val < 10000 := by omega
    refine (out_row m c t y ⟨_, hr⟩ q rfl hy1.symm).trans ?_
    show (_ : EReal) = _
    refine Finset.sum_congr rfl fun k _ => ?_
    rw [iblk_adj3 m c t p k ⟨_, hr⟩ (by show t.val * 400 + (y 0).val = (5 * t.val + 1) * 80 + p.val; omega), supp_apply]
  · intro p q y hy0 hy1
    have hy : (y 0).val < 400 := idx2_lt0 y
    have hr : t.val * 400 + (y 0).val < 10000 := by omega
    refine (out_row m c t y ⟨_, hr⟩ q rfl hy1.symm).trans ?_
    show (_ : EReal) = _
    refine Finset.sum_congr rfl fun k _ => ?_
    rw [iblk_adj4 m c t p k ⟨_, hr⟩ (by show t.val * 400 + (y 0).val = (5 * t.val + 2) * 80 + p.val; omega), supp_apply]
  · intro p q y hy0 hy1
    have hy : (y 0).val < 400 := idx2_lt0 y
    have hr : t.val * 400 + (y 0).val < 10000 := by omega
    refine (out_row m c t y ⟨_, hr⟩ q rfl hy1.symm).trans ?_
    show (_ : EReal) = _
    refine Finset.sum_congr rfl fun k _ => ?_
    rw [iblk_adj5 m c t p k ⟨_, hr⟩ (by show t.val * 400 + (y 0).val = (5 * t.val + 3) * 80 + p.val; omega), supp_apply]
  · intro p q y hy0 hy1
    have hy : (y 0).val < 400 := idx2_lt0 y
    have hr : t.val * 400 + (y 0).val < 10000 := by omega
    refine (out_row m c t y ⟨_, hr⟩ q rfl hy1.symm).trans ?_
    show (_ : EReal) = _
    refine Finset.sum_congr rfl fun k _ => ?_
    rw [iblk_adj6 m c t p k ⟨_, hr⟩ (by show t.val * 400 + (y 0).val = (5 * t.val + 4) * 80 + p.val; omega), supp_apply]

/-- What point `t` writes back is block `t` of the specification. -/
theorem flushed_eq (c : Dev nD) (t : Fin cfg0.N) :
    (dats m 0 c).flushed 7 t = ((cfg0.win 7).blk t).view.read (Elt Ideal) (Cert.Gcn.gcn (feat m c) (adjm m c) (wgt m c)) := by
  show (cfg0.win 7).cut (grid0.coords t) ((dats m 0 c).after 7 t) = _
  rw [after7]
  exact block_eq m c t

/-! ### The 25 blocks tile the result array -/

/-- An index of the result array is in point `t`'s block iff each coordinate is in the block's range on its axis. -/
theorem mem_out_blk (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v0).slice (win0_7.rect t)).set ↔ _
  rw [View.set_slice_whole, Rect.mem_set_unit]
  exact Iff.rfl

/-- Row `r` is in the block of point `r / 400`, and every point writes its block back. -/
theorem cover (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  obtain ⟨t, ht⟩ : ∃ t : Fin cfg0.N, t.val = (i 0).val / 400 :=
    ⟨⟨(i 0).val / 400, Nat.lt_of_lt_of_eq (by omega : (i 0).val / 400 < 25) N_0.symm⟩, rfl⟩
  obtain ⟨o0, o1⟩ := idx_out t
  refine ⟨t, flush0_7 t, ?_⟩
  rw [mem_out_blk]
  intro a
  match a with
  | ⟨0, _⟩ => show win0_7.index t (0 : Fin 2) * 400 ≤ (i 0).val ∧ (i 0).val < win0_7.index t (0 : Fin 2) * 400 + 400; rw [o0, ht]; omega
  | ⟨1, _⟩ => show win0_7.index t (1 : Fin 2) * 128 ≤ (i 1).val ∧ (i 1).val < win0_7.index t (1 : Fin 2) * 128 + 128; rw [o1]; omega

/-! ### The arrays after the run -/

/-- THE RESULT ARRAY after the run is the graph convolution of the three arguments' launch contents. -/
theorem result_eq (c : Dev nD) :
    (Cert.KernelIdeal.Hand.dats (F := Ideal) m 0 c).arrAt 7 cfg0.N
      = Cert.Gcn.gcn (m ((c : Thread nD τ).loc main_arg0)) (m ((c : Thread nD τ).loc main_arg1)) (m ((c : Thread nD τ).loc main_arg2)) :=
  (dats m 0 c).arrAt_eq_of_cover 7 (Cert.Gcn.gcn (feat m c) (adjm m c) (wgt m c)) (fun t _ => flushed_eq m c t) (fun i => cover i)

/-- The seven input windows' arrays are never written: after the run they are as the region found them. -/
theorem arr0_eq (c : Dev nD) : (dats m 0 c).arrAt 0 cfg0.N = (dats m 0 c).A 0 := (dats m 0 c).arrAt_in 0 rfl cfg0.N
theorem arr1_eq (c : Dev nD) : (dats m 0 c).arrAt 1 cfg0.N = (dats m 0 c).A 1 := (dats m 0 c).arrAt_in 1 rfl cfg0.N
theorem arr2_eq (c : Dev nD) : (dats m 0 c).arrAt 2 cfg0.N = (dats m 0 c).A 2 := (dats m 0 c).arrAt_in 2 rfl cfg0.N
theorem arr3_eq (c : Dev nD) : (dats m 0 c).arrAt 3 cfg0.N = (dats m 0 c).A 3 := (dats m 0 c).arrAt_in 3 rfl cfg0.N
theorem arr4_eq (c : Dev nD) : (dats m 0 c).arrAt 4 cfg0.N = (dats m 0 c).A 4 := (dats m 0 c).arrAt_in 4 rfl cfg0.N
theorem arr5_eq (c : Dev nD) : (dats m 0 c).arrAt 5 cfg0.N = (dats m 0 c).A 5 := (dats m 0 c).arrAt_in 5 rfl cfg0.N
theorem arr6_eq (c : Dev nD) : (dats m 0 c).arrAt 6 cfg0.N = (dats m 0 c).A 6 := (dats m 0 c).arrAt_in 6 rfl cfg0.N

end Cert.KernelIdeal.HandValue

end
-- ==== Proof.RefValue.lean ====
/-
  The reference's value. Its two dot products, each one contracted axis, read at every index are the nested sums
  of the specification: entry `(r, j)` of the second product is `∑ k, adj[r, k] · (v · W)[k, j]`, and entry `(k, j)`
  of the first is `∑ l, v[k, l] · W[l, j]`. No algebraic law is used: the two sides are the same sums, in the same
  order and grouping.
-/
import proofs.«170291_g21157008900740_cont_8to1_106_8_alg».proof.Proof.Gen.ReferenceIdeal.Run
import proofs.«170291_g21157008900740_cont_8to1_106_8_alg».proof.Proof.Gen.ReferenceIdeal.Read
import proofs.«170291_g21157008900740_cont_8to1_106_8_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The operand indices of the two products, by coordinates -/

/-- The first product at `(k, j)` reads the features at `(k, l)`. -/
theorem lidx_support (k : Fin 10000) (j : Fin 128) (l : Fin 128) :
    Read.lidx_main_v0 (ix2 k j) l = ix2 k l :=
  funext fun a => Fin.ext (by match a with | ⟨0, _⟩ => rfl | ⟨1, _⟩ => rfl)

/-- The first product at `(k, j)` reads the weights at `(l, j)`. -/
theorem ridx_support (k : Fin 10000) (j : Fin 128) (l : Fin 128) :
    Read.ridx_main_v0 (ix2 k j) l = ix2 l j :=
  funext fun a => Fin.ext (by match a with | ⟨0, _⟩ => rfl | ⟨1, _⟩ => rfl)

/-- The second product at `(r, j)` reads the adjacency matrix at `(r, k)`. -/
theorem lidx_aggregate (r : Fin 10000) (j : Fin 128) (k : Fin 10000) :
    Read.lidx_main_v1 (ix2 r j) k = ix2 r k :=
  funext fun a => Fin.ext (by match a with | ⟨0, _⟩ => rfl | ⟨1, _⟩ => rfl)

/-- The second product at `(r, j)` reads the first product at `(k, j)`. -/
theorem ridx_aggregate (r : Fin 10000) (j : Fin 128) (k : Fin 10000) :
    Read.ridx_main_v1 (ix2 r j) k = ix2 k j :=
  funext fun a => Fin.ext (by match a with | ⟨0, _⟩ => rfl | ⟨1, _⟩ => rfl)

/-! ## The two products at an index -/

/-- The first product is the feature transform: `(v · W)[k, j]`. -/
theorem support_at (v : (⟨S10000x128, .f32⟩ : BufTy).Contents (Elt Ideal)) (W : (⟨S128x128, .f32⟩ : BufTy).Contents (Elt Ideal)) (k : Fin 10000) (j : Fin 128) :
    Read.val_main_v0 (F := Ideal) v W (ix2 k j) = Cert.Gcn.supportAt v W k j := by
  rw [Read.val_main_v0_apply]
  unfold Cert.Gcn.supportAt
  refine Finset.sum_congr rfl fun l _ => ?_
  rw [lidx_support, ridx_support]

/-- The second product is the aggregation of the transformed features: `(adj · (v · W))[r, j]`. -/
theorem gcn_at (v : (⟨S10000x128, .f32⟩ : BufTy).Contents (Elt Ideal)) (adj : (⟨S10000x10000, .f32⟩ : BufTy).Contents (Elt Ideal)) (W : (⟨S128x128, .f32⟩ : BufTy).Contents (Elt Ideal))
    (r : Fin 10000) (j : Fin 128) :
    Read.val_main_v1 (F := Ideal) v adj W (ix2 r j) = Cert.Gcn.gcnAt v adj W r j := by
  rw [Read.val_main_v1_apply]
  unfold Cert.Gcn.gcnAt
  refine Finset.sum_congr rfl fun k _ => ?_
  rw [lidx_aggregate, ridx_aggregate, support_at]

/-! ## The reference is the specification -/

/-- The term the reference's run leaves in its result is the graph convolution of the specification. -/
theorem ref_eq (v : (⟨S10000x128, .f32⟩ : BufTy).Contents (Elt Ideal)) (adj : (⟨S10000x10000, .f32⟩ : BufTy).Contents (Elt Ideal)) (W : (⟨S128x128, .f32⟩ : BufTy).Contents (Elt Ideal)) :
    Host.dotGeneral (F := Ideal) (φ₁ := .f32) (φ₂ := .f32) dot_S10000x10000_S10000x128_S10000x128_1_0_0_1_n_n none adj
        (Host.dotGeneral (F := Ideal) (φ₁ := .f32) (φ₂ := .f32) dot_S10000x128_S128x128_S10000x128_1_0_0_1_n_n none v W)
      = Cert.Gcn.gcn v adj W := by
  rw [Read.val_main_v1_eq]
  funext i
  obtain ⟨r, j, rfl⟩ : ∃ (r : Fin 10000) (j : Fin 128), i = ix2 r j := ⟨i 0, i 1, eq_ix2 i⟩
  rw [gcn_at, Cert.Gcn.gcn_ix2]

/-- The same, for the stage the run's term is. -/
theorem val_eq (v : (⟨S10000x128, .f32⟩ : BufTy).Contents (Elt Ideal)) (adj : (⟨S10000x10000, .f32⟩ : BufTy).Contents (Elt Ideal)) (W : (⟨S128x128, .f32⟩ : BufTy).Contents (Elt Ideal)) :
    Read.val_main_v1 (F := Ideal) v adj W = Cert.Gcn.gcn v adj W :=
  (Read.val_main_v1_eq (F := Ideal) v adj W).symm.trans (ref_eq v adj W)

/-! ## The reference's run, its result named by the specification -/

/-- On every device, from any memory with zero counters: every weakly fair execution of the reference terminates
    with its result the graph convolution of the three arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = Cert.Gcn.gcn (m ((c.tc : Thread nD τ).loc main_arg0)) (m ((c.tc : Thread nD τ).loc main_arg1))
              (m ((c.tc : Thread nD τ).loc main_arg2))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (ref_eq _ _ _), (h c).2⟩)
    (Cert.ReferenceIdeal.Value.run (F := Ideal) m ρ)

end Cert.ReferenceIdeal.RefValue

end
-- ==== Proof.lean ====
/-
  Graph convolution without bias, `out = adj · (v · W)`, as one pipelined kernel against its plain reference.

  THE KERNEL walks the 10000 result rows in 25 steps of 400. At the first step it multiplies the node features `v` by
  the weights `W` and keeps the product (the support) in a scratch buffer for all later steps. At every step it is
  handed five consecutive 80-row slabs of the adjacency matrix — five windows onto ONE array — and writes each slab
  times the support into its part of the step's 400-row result block. THE REFERENCE is the two matrix products
  `adj · (v · W)` on the host.

  Over the extended reals a change of float format is the identity and a matrix product into a zero accumulator is the
  plain sum over the contracted axis, so both programs compute, at entry `(r, j)`,
  `∑ k, adj[r, k] · (∑ l, v[k, l] · W[l, j])` (Proof/Spec.lean): the same nested sums, in the same order; no
  algebraic law and no finiteness of the inputs is needed. Proof/KValue.lean reads the kernel's result array as that
  function — block `t` of the result is rows `400 t … 400 t + 399`, slab `k` of it rows `400 t + 80 k …`, which is
  adjacency slab `5 t + k` — and Proof/RefValue.lean the reference's.

  The frames (each program terminates, faults nowhere, leaves its arguments unchanged) of the two kernel programs are
  one argument, generic in the float instance: the body's run at the first and at a later step (Proof/Body.lean), the
  proof data and the body obligation (Proof/Data.lean, Proof/Oblig.lean), the adjacency array's full share dealt in
  five read shares to the five windows on it (Proof/Shares.lean), and the launch (Proof/Launch.lean). The reference's
  frame is its run with the result dropped. The ideal pass rewrote nothing, so `preserves` has nothing to state.
-/
import proofs.«170291_g21157008900740_cont_8to1_106_8_alg».proof.Defs
import proofs.«170291_g21157008900740_cont_8to1_106_8_alg».proof.Proof.Gen.Kernel
import proofs.«170291_g21157008900740_cont_8to1_106_8_alg».proof.Proof.Gen.KernelIdeal
import proofs.«170291_g21157008900740_cont_8to1_106_8_alg».proof.Proof.Gen.ReferenceIdeal
import proofs.«170291_g21157008900740_cont_8to1_106_8_alg».proof.Proof.Gen.Pre_finite_inputs
import proofs.«170291_g21157008900740_cont_8to1_106_8_alg».proof.Proof.LaunchBits
import proofs.«170291_g21157008900740_cont_8to1_106_8_alg».proof.Proof.Launch
import proofs.«170291_g21157008900740_cont_8to1_106_8_alg».proof.Proof.KValue
import proofs.«170291_g21157008900740_cont_8to1_106_8_alg».proof.Proof.RefValue
import Idealize.ShloMosaic.Adequacy
import Idealize.ShloMosaic.Init

noncomputable section

namespace Cert.Proof

open Idealize.ShloMosaic Idealize.SL.Sem

/-- The word-level kernel runs to the end and keeps its arguments. -/
theorem frame_k : Cert.frame_Kernel := fun m ρ _ =>
  (θ_run (Cert.Kernel.defs (F := Bits)) _ _).mono (fun _ h c => (h c).2) (Cert.Kernel.Hand.run_args (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_args (F := Ideal) m ρ)

/-- The reference's frame is its run with the results dropped. -/
theorem frame_ri : Cert.frame_ReferenceIdeal := fun m ρ _ =>
  (θ_run (Cert.ReferenceIdeal.defs (F := Ideal)) _ _).mono (fun _ h c => (h c).2.2) (Cert.ReferenceIdeal.Value.run (F := Ideal) m ρ)

/-- From memories agreeing on the arguments both programs end with the result array at `adj · (v · W)` of those
    arguments, entry by entry over the extended reals, and with the adjacency matrix (the second result) unchanged. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg1), ?_, ?_⟩
  · refine (θ_run (Cert.KernelIdeal.defs (F := Ideal)) _ _).mono (fun _ h c => ?_) (Cert.KernelIdeal.Hand.run_args (F := Ideal) m ρ)
    obtain ⟨h7, h0, h1, h2⟩ := h c
    exact ⟨h7.trans (Cert.KernelIdeal.HandValue.result_eq m c), h1, h0, h1, h2⟩
  · refine (θ_run (Cert.ReferenceIdeal.defs (F := Ideal)) _ _).mono (fun _ h c => ?_) (Cert.ReferenceIdeal.RefValue.ref_run m' ρ')
    obtain ⟨hv, h1, h0, h1', h2⟩ := h c
    refine ⟨?_, ?_, h0, h1', h2⟩
    · rw [hv, (hagree c).1, (hagree c).2.1, (hagree c).2.2]
    · rw [h1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
